-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10x10x128 : Shape := ⟨3, ![10, 10, 128]⟩
abbrev S500000x128 : Shape := ⟨2, ![500000, 128]⟩
abbrev S500000 : Shape := ⟨1, ![500000]⟩
abbrev S_ : Shape := ⟨0, ![]⟩

class Facts : Prop where
  bcast_S_S10x10x128 : S_.BroadcastsInDim S10x10x128 (![] : Fin 0 → Fin S10x10x128.rank)
  reducesTo_S10x10x128_S_d0_1_2 : S10x10x128.ReducesTo [0, 1, 2] S_
  h_S_ : 0 < S_.numel
  bcast_S_S500000x128 : S_.BroadcastsInDim S500000x128 (![] : Fin 0 → Fin S500000x128.rank)
  reducesTo_S500000x128_S_d0_1 : S500000x128.ReducesTo [0, 1] S_

variable [Facts]

def fn {F : FTy → Type} [FloatOps F] (main_arg0 : FVec F S10x10x128 .f32) (main_arg1 : FVec F S500000x128 .f32) (main_arg2 : IVec S500000 32) : IVec S_ 1 :=
  let main_v0 : FVec F S10x10x128 .f32 := Host.absf main_arg0
  let main_cst : FVec F S_ .f32 := constant S_ .f32 0x7F800000#32
  let main_v1 : FVec F S10x10x128 .f32 := broadcastInDim S10x10x128 ![] bcast_S_S10x10x128 main_cst
  let main_v2 : IVec S10x10x128 1 := cmpf .olt main_v0 main_v1
  let main_c : IVec S_ 1 := constantI S_ 1 1#1
  let main_v3 : IVec S_ 1 := (fun x v => Host.reduce IntOp.andi x v reducesTo_S10x10x128_S_d0_1_2 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  main_v8
-- ==== Kernel.lean ====
abbrev S10x10x128 : Shape := ⟨3, ![10, 10, 128]⟩
abbrev S500000x128 : Shape := ⟨2, ![500000, 128]⟩
abbrev S500000 : Shape := ⟨1, ![500000]⟩
abbrev S10x10x10 : Shape := ⟨3, ![10, 10, 10]⟩
abbrev S_ : Shape := ⟨0, ![]⟩
abbrev S100x128 : Shape := ⟨2, ![100, 128]⟩
abbrev S500100x128 : Shape := ⟨2, ![500100, 128]⟩
abbrev S1x500000 : Shape := ⟨2, ![1, 500000]⟩
abbrev S100x500000 : Shape := ⟨2, ![100, 500000]⟩
abbrev S8192x128 : Shape := ⟨2, ![8192, 128]⟩
abbrev S1x8192 : Shape := ⟨2, ![1, 8192]⟩
abbrev S100x8192 : Shape := ⟨2, ![100, 8192]⟩
abbrev S128x8192 : Shape := ⟨2, ![128, 8192]⟩
abbrev S100x1 : Shape := ⟨2, ![100, 1]⟩
abbrev S10x10x500000 : Shape := ⟨3, ![10, 10, 500000]⟩

abbrev nBuf : Space → Nat
  | .hbm => 25
  | .vmem => 7
  | .smem => 0
  | _ => 0

abbrev bufTy : (tb : Table) → Fin (tcTables nBuf tb) → BufTy
  | .hbm, ⟨0, _⟩ => ⟨S10x10x128, .f32⟩
  | .hbm, ⟨1, _⟩ => ⟨S500000x128, .f32⟩
  | .hbm, ⟨2, _⟩ => ⟨S500000, .i32⟩
  | .hbm, ⟨3, _⟩ => ⟨S10x10x10, .f32⟩
  | .hbm, ⟨4, _⟩ => ⟨S10x10x10, .f32⟩
  | .hbm, ⟨5, _⟩ => ⟨S10x10x10, .f32⟩
  | .hbm, ⟨6, _⟩ => ⟨S_, .f32⟩
  | .hbm, ⟨7, _⟩ => ⟨S10x10x10, .f32⟩
  | .hbm, ⟨8, _⟩ => ⟨S10x10x10, .f32⟩
  | .hbm, ⟨9, _⟩ => ⟨S_, .f32⟩
  | .hbm, ⟨10, _⟩ => ⟨S10x10x10, .f32⟩
  | .hbm, ⟨11, _⟩ => ⟨S10x10x10, .f32⟩
  | .hbm, ⟨12, _⟩ => ⟨S_, .f32⟩
  | .hbm, ⟨13, _⟩ => ⟨S10x10x10, .f32⟩
  | .hbm, ⟨14, _⟩ => ⟨S10x10x10, .i1⟩
  | .hbm, ⟨15, _⟩ => ⟨S_, .f32⟩
  | .hbm, ⟨16, _⟩ => ⟨S_, .f32⟩
  | .hbm, ⟨17, _⟩ => ⟨S10x10x10, .f32⟩
  | .hbm, ⟨18, _⟩ => ⟨S10x10x10, .f32⟩
  | .hbm, ⟨19, _⟩ => ⟨S100x128, .f32⟩
  | .hbm, ⟨20, _⟩ => ⟨S500100x128, .f32⟩
  | .hbm, ⟨21, _⟩ => ⟨S100x128, .bf16⟩
  | .hbm, ⟨22, _⟩ => ⟨S1x500000, .i32⟩
  | .hbm, ⟨23, _⟩ => ⟨S100x500000, .f32⟩
  | .hbm, ⟨24, _⟩ => ⟨S10x10x500000, .f32⟩
  | .local _ .vmem, ⟨0, _⟩ => ⟨S100x128, .bf16⟩
  | .local _ .vmem, ⟨1, _⟩ => ⟨S8192x128, .f32⟩
  | .local _ .vmem, ⟨2, _⟩ => ⟨S8192x128, .f32⟩
  | .local _ .vmem, ⟨3, _⟩ => ⟨S1x8192, .i32⟩
  | .local _ .vmem, ⟨4, _⟩ => ⟨S1x8192, .i32⟩
  | .local _ .vmem, ⟨5, _⟩ => ⟨S100x8192, .f32⟩
  | .local _ .vmem, ⟨6, _⟩ => ⟨S100x8192, .f32⟩
  | _, _ => ⟨S10x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S100x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S100x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S10x10x10 : S_.BroadcastsInDim S10x10x10 (![] : Fin 0 → Fin S10x10x10.rank)
  shapeCasts_S10x10x128_S100x128 : S10x10x128.ShapeCasts S100x128
  concatenates_S100x128_S500000x128_S500100x128_d0 : Shape.Concatenates [S100x128, S500000x128] S500100x128 0
  bitsLt_bf16_f32 : FTy.bits .bf16 < FTy.bits .f32
  shapeCasts_S500000_S1x500000 : S500000.ShapeCasts S1x500000
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S8192x128_S8192x128_0_0 : ∀ a, (![0, 0] : Fin 2 → Nat) a + S8192x128.size a ≤ S8192x128.size a
  h_S8192x128 : 0 < S8192x128.numel
  transposes_S8192x128_p1_0_S128x8192 : S8192x128.Transposes [1, 0] S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S100x1_d0_w32 : S100x1.Iotas .tc 32 [0]
  natLt_1_32 : 1 < 32
  broadcasts_S100x1_S100x8192 : S100x1.Broadcasts S100x8192
  broadcasts_S1x8192_S100x8192 : S1x8192.Broadcasts S100x8192
  inb_S100x8192_S100x8192_0_0 : ∀ a, (![0, 0] : Fin 2 → Nat) a + S100x8192.size a ≤ S100x8192.size a
  h_S100x8192 : 0 < S100x8192.numel
  shapeCasts_S100x500000_S10x10x500000 : S100x500000.ShapeCasts S10x10x500000
  dot_S10x10x128_S10x10x128_S10x10x10_2_2_1_1_0_0_wf : DotDims.WF S10x10x128 S10x10x128 S10x10x10 [2] [2] [1] [1] [0] [0]
  dot_S100x128_S128x8192_S100x8192_1_0_0_1_n_n_wf : DotDims.WF S100x128 S128x8192 S100x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x128.size a ≤ S100x128.size a
  hwx0_0 : ∀ i : grid0.Coords, EltTy.bits .bf16 = 32 ∨ (Rect.block (s := S100x128) S100x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x128.size a < S500000x128.size a
  hwx0_1 : ∀ i : grid0.Coords, EltTy.bits .f32 = 32 ∨ (Rect.unit (s := S500000x128) (fun a => cc0_transform_1 i a * S8192x128.size a) (fun a => (Pipeline.Clip.of (cc0_transform_1 i a) (S8192x128.size a) (S500000x128.size a)).extent (S8192x128.size a)) fun a => Pipeline.Clip.inb (Pipeline.Clip.ok_of (hstart0_1 i a))).WholeWords (EltTy.packing .f32)
  hwxs0_1 : ∀ i : grid0.Coords, EltTy.bits .f32 = 32 ∨ (Rect.unit (s := S8192x128) (fun _ => 0) (fun a => (Pipeline.Clip.of (cc0_transform_1 i a) (S8192x128.size a) (S500000x128.size a)).extent (S8192x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x8192.size a < S1x500000.size a
  hwx0_2 : ∀ i : grid0.Coords, EltTy.bits .i32 = 32 ∨ (Rect.unit (s := S1x500000) (fun a => cc0_transform_2 i a * S1x8192.size a) (fun a => (Pipeline.Clip.of (cc0_transform_2 i a) (S1x8192.size a) (S1x500000.size a)).extent (S1x8192.size a)) fun a => Pipeline.Clip.inb (Pipeline.Clip.ok_of (hstart0_2 i a))).WholeWords (EltTy.packing .i32)
  hwxs0_2 : ∀ i : grid0.Coords, EltTy.bits .i32 = 32 ∨ (Rect.unit (s := S1x8192) (fun _ => 0) (fun a => (Pipeline.Clip.of (cc0_transform_2 i a) (S1x8192.size a) (S1x500000.size a)).extent (S1x8192.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S100x8192.size a < S100x500000.size a
  hwx0_3 : ∀ i : grid0.Coords, EltTy.bits .f32 = 32 ∨ (Rect.unit (s := S100x500000) (fun a => cc0_transform_3 i a * S100x8192.size a) (fun a => (Pipeline.Clip.of (cc0_transform_3 i a) (S100x8192.size a) (S100x500000.size a)).extent (S100x8192.size a)) fun a => Pipeline.Clip.inb (Pipeline.Clip.ok_of (hstart0_3 i a))).WholeWords (EltTy.packing .f32)
  hwxs0_3 : ∀ i : grid0.Coords, EltTy.bits .f32 = 32 ∨ (Rect.unit (s := S100x8192) (fun _ => 0) (fun a => (Pipeline.Clip.of (cc0_transform_3 i a) (S100x8192.size a) (S100x500000.size a)).extent (S100x8192.size a)) fun a => (Nat.zero_add _).trans_le (Pipeline.Clip.extent_le (Pipeline.Clip.ok_of (hstart0_3 i a)))).WholeWords (EltTy.packing .f32)

variable [Facts₀]

def dot_S10x10x128_S10x10x128_S10x10x10_2_2_1_1_0_0 : DotDims S10x10x128 S10x10x128 S10x10x10 where
  lhsContracting := [2]
  rhsContracting := [2]
  lhsNonContracting := [1]
  rhsNonContracting := [1]
  lhsBatch := [0]
  rhsBatch := [0]
  wf := dot_S10x10x128_S10x10x128_S10x10x10_2_2_1_1_0_0_wf
def dot_S100x128_S128x8192_S100x8192_1_0_0_1_n_n : DotDims S100x128 S128x8192 S100x8192 where
  lhsContracting := [1]
  rhsContracting := [0]
  lhsNonContracting := [0]
  rhsNonContracting := [1]
  lhsBatch := []
  rhsBatch := []
  wf := dot_S100x128_S128x8192_S100x8192_1_0_0_1_n_n_wf

abbrev win0_0 : Pipeline.Window sig grid0 :=
  Pipeline.Window.ofSpec (Memref.whole main_v12) S100x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S8192x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v13) S1x8192.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v14) S100x8192.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10x10x128 : Shape := ⟨3, ![10, 10, 128]⟩
abbrev S500000x128 : Shape := ⟨2, ![500000, 128]⟩
abbrev S500000 : Shape := ⟨1, ![500000]⟩
abbrev S10x10x10 : Shape := ⟨3, ![10, 10, 10]⟩
abbrev S_ : Shape := ⟨0, ![]⟩
abbrev S10x10x500000 : Shape := ⟨3, ![10, 10, 500000]⟩
abbrev S1x500000 : Shape := ⟨2, ![1, 500000]⟩
abbrev S10 : Shape := ⟨1, ![10]⟩
abbrev S10x1 : Shape := ⟨2, ![10, 1]⟩
abbrev S10x500000 : Shape := ⟨2, ![10, 500000]⟩
abbrev S10x1x500000 : Shape := ⟨3, ![10, 1, 500000]⟩
abbrev S100x128 : Shape := ⟨2, ![100, 128]⟩
abbrev S500100x128 : Shape := ⟨2, ![500100, 128]⟩

abbrev nBuf : Space → Nat
  | .hbm => 46
  | .vmem => 0
  | .smem => 0
  | _ => 0

abbrev bufTy : (tb : Table) → Fin (tcTables nBuf tb) → BufTy
  | .hbm, ⟨0, _⟩ => ⟨S10x10x128, .f32⟩
  | .hbm, ⟨1, _⟩ => ⟨S500000x128, .f32⟩
  | .hbm, ⟨2, _⟩ => ⟨S500000, .i32⟩
  | .hbm, ⟨3, _⟩ => ⟨S10x10x10, .f32⟩
  | .hbm, ⟨4, _⟩ => ⟨S10x10x10, .f32⟩
  | .hbm, ⟨5, _⟩ => ⟨S10x10x10, .f32⟩
  | .hbm, ⟨6, _⟩ => ⟨S_, .f32⟩
  | .hbm, ⟨7, _⟩ => ⟨S10x10x10, .f32⟩
  | .hbm, ⟨8, _⟩ => ⟨S10x10x10, .f32⟩
  | .hbm, ⟨9, _⟩ => ⟨S_, .f32⟩
  | .hbm, ⟨10, _⟩ => ⟨S10x10x10, .f32⟩
  | .hbm, ⟨11, _⟩ => ⟨S10x10x10, .f32⟩
  | .hbm, ⟨12, _⟩ => ⟨S_, .f32⟩
  | .hbm, ⟨13, _⟩ => ⟨S10x10x10, .f32⟩
  | .hbm, ⟨14, _⟩ => ⟨S10x10x10, .i1⟩
  | .hbm, ⟨15, _⟩ => ⟨S_, .f32⟩
  | .hbm, ⟨16, _⟩ => ⟨S_, .f32⟩
  | .hbm, ⟨17, _⟩ => ⟨S10x10x10, .f32⟩
  | .hbm, ⟨18, _⟩ => ⟨S10x10x10, .f32⟩
  | .hbm, ⟨19, _⟩ => ⟨S10x10x500000, .f32⟩
  | .hbm, ⟨20, _⟩ => ⟨S10x10x500000, .f32⟩
  | .hbm, ⟨21, _⟩ => ⟨S10x10x500000, .f32⟩
  | .hbm, ⟨22, _⟩ => ⟨S_, .f32⟩
  | .hbm, ⟨23, _⟩ => ⟨S10x10x500000, .f32⟩
  | .hbm, ⟨24, _⟩ => ⟨S10x10x500000, .f32⟩
  | .hbm, ⟨25, _⟩ => ⟨S_, .f32⟩
  | .hbm, ⟨26, _⟩ => ⟨S10x10x500000, .f32⟩
  | .hbm, ⟨27, _⟩ => ⟨S10x10x500000, .f32⟩
  | .hbm, ⟨28, _⟩ => ⟨S1x500000, .i32⟩
  | .hbm, ⟨29, _⟩ => ⟨S10, .i32⟩
  | .hbm, ⟨30, _⟩ => ⟨S10x1, .i32⟩
  | .hbm, ⟨31, _⟩ => ⟨S10x500000, .i32⟩
  | .hbm, ⟨32, _⟩ => ⟨S10x500000, .i32⟩
  | .hbm, ⟨33, _⟩ => ⟨S10x500000, .i1⟩
  | .hbm, ⟨34, _⟩ => ⟨S_, .f32⟩
  | .hbm, ⟨35, _⟩ => ⟨S10x10x500000, .f32⟩
  | .hbm, ⟨36, _⟩ => ⟨S10x10x500000, .i1⟩
  | .hbm, ⟨37, _⟩ => ⟨S10x1x500000, .i1⟩
  | .hbm, ⟨38, _⟩ => ⟨S10x10x500000, .i1⟩
  | .hbm, ⟨39, _⟩ => ⟨S10x10x500000, .i1⟩
  | .hbm, ⟨40, _⟩ => ⟨S_, .f32⟩
  | .hbm, ⟨41, _⟩ => ⟨S_, .f32⟩
  | .hbm, ⟨42, _⟩ => ⟨S10x10x500000, .f32⟩
  | .hbm, ⟨43, _⟩ => ⟨S10x10x500000, .f32⟩
  | .hbm, ⟨44, _⟩ => ⟨S100x128, .f32⟩
  | .hbm, ⟨45, _⟩ => ⟨S500100x128, .f32⟩
  | _, _ => ⟨S10x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S10x10x10 : S_.BroadcastsInDim S10x10x10 (![] : Fin 0 → Fin S10x10x10.rank)
  bcast_S_S10x10x500000 : S_.BroadcastsInDim S10x10x500000 (![] : Fin 0 → Fin S10x10x500000.rank)
  bcast_S500000_S1x500000_1 : S500000.BroadcastsInDim S1x500000 (![1] : Fin 1 → Fin S1x500000.rank)
  bcast_S10_S10x1_0 : S10.BroadcastsInDim S10x1 (![0] : Fin 1 → Fin S10x1.rank)
  bcast_S1x500000_S10x500000_0_1 : S1x500000.BroadcastsInDim S10x500000 (![0, 1] : Fin 2 → Fin S10x500000.rank)
  bcast_S10x1_S10x500000_0_1 : S10x1.BroadcastsInDim S10x500000 (![0, 1] : Fin 2 → Fin S10x500000.rank)
  bcast_S10x500000_S10x1x500000_0_2 : S10x500000.BroadcastsInDim S10x1x500000 (![0, 2] : Fin 2 → Fin S10x1x500000.rank)
  bcast_S10x1x500000_S10x10x500000_0_1_2 : S10x1x500000.BroadcastsInDim S10x10x500000 (![0, 1, 2] : Fin 3 → Fin S10x10x500000.rank)
  shapeCasts_S10x10x128_S100x128 : S10x10x128.ShapeCasts S100x128
  concatenates_S100x128_S500000x128_S500100x128_d0 : Shape.Concatenates [S100x128, S500000x128] S500100x128 0
  dot_S10x10x128_S10x10x128_S10x10x10_2_2_1_1_0_0_wf : DotDims.WF S10x10x128 S10x10x128 S10x10x10 [2] [2] [1] [1] [0] [0]
  dot_S10x10x128_S500000x128_S10x10x500000_2_1_01_0_n_n_wf : DotDims.WF S10x10x128 S500000x128 S10x10x500000 [2] [1] [0, 1] [0] [] []

variable [Facts₀]

def dot_S10x10x128_S10x10x128_S10x10x10_2_2_1_1_0_0 : DotDims S10x10x128 S10x10x128 S10x10x10 where
  lhsContracting := [2]
  rhsContracting := [2]
  lhsNonContracting := [1]
  rhsNonContracting := [1]
  lhsBatch := [0]
  rhsBatch := [0]
  wf := dot_S10x10x128_S10x10x128_S10x10x10_2_2_1_1_0_0_wf
def dot_S10x10x128_S500000x128_S10x10x500000_2_1_01_0_n_n : DotDims S10x10x128 S500000x128 S10x10x500000 where
  lhsContracting := [2]
  rhsContracting := [1]
  lhsNonContracting := [0, 1]
  rhsNonContracting := [0]
  lhsBatch := []
  rhsBatch := []
  wf := dot_S10x10x128_S500000x128_S10x10x500000_2_1_01_0_n_n_wf

class Facts : Prop extends Facts₀ where

variable [Facts]
-- ==== Proof.KernelBody.lean ====
/-
  The kernel body run once on four whole staging buffers. It loads the resident token rows, the point's node rows and
  the point's labels, computes one 100 × 8192 tile as a pure function of the three, and stores the tile over the
  whole result buffer (after a load of that buffer whose value is not used). So the three input buffers end as
  they were and the result buffer holds the tile, whatever all four held before. Stated for any float instance.
-/
import proofs.«161334_j49478023250329_1_alg».proof.Proof.Gen.Kernel.Launch
import proofs.«161334_j49478023250329_1_alg».proof.Proof.Gen.Kernel.Skeleton
import proofs.«161334_j49478023250329_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.BodyRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging buffers holding `x0`, `x1`, `x2` and anything, the body runs to the continuation with the first
    three unchanged and the fourth at the tile `k0_pay1 x0 x1 x2`: the one store covers the buffer, so what was there
    before is gone, and each load through the whole-buffer rectangle reads the contents. -/
theorem sound_kernel (c : Dev nD) (E : Set ℕ) (i : grid0.Coords)
    (arg1 : Memref sig .tc .vmem S100x128 .bf16) (harg1 : arg1.IsWhole) (arg2 : Memref sig .tc .vmem S8192x128 .f32) (harg2 : arg2.IsWhole)
    (arg3 : Memref sig .tc .vmem S1x8192 .i32) (harg3 : arg3.IsWhole) (arg4 : Memref sig .tc .vmem S100x8192 .f32) (harg4 : arg4.IsWhole)
    (x0 : Vec F S100x128 .bf16) (x1 : Vec F S8192x128 .f32) (x2 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__cross_kernel i arg1 harg1 arg2 harg2 arg3 harg3 arg4 harg4) K := by
  simp only [cc0__cross_kernel_eq_skeleton]; unfold cc0__cross_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one piece written is the whole-buffer rectangle: reading back gives its payload, and each load of a
  -- whole-buffer rectangle is the buffer's contents
  have hz : (![0, 0] : Fin 2 → Nat) = fun _ => 0 := funext fun a => by fin_cases a <;> rfl
  rw [View.read_writes_eq_canon _ _ _ (fun y => ⟨_, List.mem_singleton_self _, View.mem_set_unit_zero hz inb_S100x8192_S100x8192_0_0 y⟩)]
  sl_unfold_words
  rw [View.canon_unit_zero hz]
  simp only [View.readAt_eq_ld, View.ld_unit_zero (S := S100x128) hz, View.ld_unit_zero (S := S8192x128) hz, View.ld_unit_zero (S := S1x8192) hz]

end Cert.Kernel.BodyRun

end
-- ==== Proof.KernelFrame.lean ====
/-
  The word-level kernel runs to the end, faults nowhere, and leaves its three argument arrays as they were. Nothing
  is said of what the body leaves in any staging buffer: at the word level the matrix product is an opaque function
  of its whole operands, and the last grid point's node-row buffer holds, past the array's end, words no one names,
  so the tile it stores has no closed form in the arguments. The frame needs none: the body only loads whole buffers
  and stores one, so it runs from any contents to some contents; the pipeline never writes an input array; and the one
  host line after the region writes only the reshaped result.
-/
import proofs.«161334_j49478023250329_1_alg».proof.Proof.Gen.Kernel.Frame
import proofs.«161334_j49478023250329_1_alg».proof.Proof.KernelBody
import Idealize.ShloMosaic.Lib.Pipeline.FrameSuffix
import Idealize.ShloMosaic.Lib.Pipeline.Value
import Idealize.ShloMosaic.Lib.Tactic

set_option maxRecDepth 16384

noncomputable section

namespace Cert.Kernel.FrameRun

open Cert.Kernel Cert.Kernel.Gen Cert.Kernel.BodyRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; of what the body leaves in a buffer nothing is asked. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point the body runs from whatever the four current buffers hold to buffers holding something. -/
theorem body_obligation (c : Dev nD) : (rdats m c).BodyObligation (defs₀ (F := F)) Variants.none () Set.univ := fun t Y _ => by
  rw [bigSep_W0, bigSep_W0]
  show iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
        iprop((rdats m c).Φ t.castSucc ∗ (rdats m c).owesAt () t.castSucc
          ∗ (∃ X, ⌜True⌝ ∗ owns (c : Thread nD τ) (st0_0 t) fullShare X) ∗ (∃ X, ⌜True⌝ ∗ owns (c : Thread nD τ) (st0_1 t) fullShare X)
          ∗ (∃ X, ⌜True⌝ ∗ owns (c : Thread nD τ) (st0_2 t) fullShare X) ∗ (∃ X, ⌜True⌝ ∗ owns (c : Thread nD τ) (st0_3 t) fullShare X)))
  iintro ⟨HΦ, Ho, H0, H1, H2, H3⟩
  unfold bodyAt0
  iapply (sound_kernel c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists _; isplitr; · ipureintro; trivial
    iexact H0
  isplitl [H1]
  · iexists _; isplitr; · ipureintro; trivial
    iexact H1
  isplitl [H2]
  · iexists _; isplitr; · ipureintro; trivial
    iexact H2
  · iexists _; isplitr; · ipureintro; trivial
    iexact H3

/-- The one buffer the host line after the region writes: the result reshaped to [10, 10, 500000]. -/
abbrev tailWrites : Finset (Ref sig .tc) := {main_v15}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  exact Finset.mem_singleton.mpr (Proc.devRef_injective _ hb)

set_option backward.isDefEq.respectTransparency.types false in
/-- Every weakly fair execution of @main ends, with every input array of the pipeline at its entry contents and every
    other buffer the tail does not write as the region found it. -/
theorem run_main : θ_run defs (onTc (τ := τ) (main (F := F))) (s₀ m ρ)
    (RDat.FramePostR cfg0 (rdats m) tailWrites (fun c b => V0 m c (Proc.devRef .tc b))) :=
  RDat.θ_run_frame_around_T cfgs (0 : Fin 1) launch0 defs₀ Variants.none (rdats m) tailWrites m ρ main
    (hbody := body_obligation m) (hshare := fun c => (rdats m c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := fun _ _ => rfl) (hΦ := fun _ _ => rfl)

/-- The frame: the node features are an input window's array, which the pipeline never writes; the tokens and the
    labels are staged by no window and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Finset.mem_sdiff.mpr ⟨Pipeline.mem_restRefs_of main_arg0 (by decide) (by decide), by decide⟩)).trans (V_main_arg0 m c),
     (RDat.FramePostR.arr_in h c 1 rfl).trans (V_main_arg1 m c),
     ((h c).2 main_arg2 (Finset.mem_sdiff.mpr ⟨Pipeline.mem_restRefs_of main_arg2 (by decide) (by decide), by decide⟩)).trans (V_main_arg2 m c)⟩)
    (run_main m ρ)

end Cert.Kernel.FrameRun

end
-- ==== Proof.IdealBody.lean ====
/-
  The kernel body run once on four whole staging buffers. It loads the resident token rows, the point's node rows and
  the point's labels, computes one 100 × 8192 tile as a pure function of the three, and stores the tile over the
  whole result buffer (after a load of that buffer whose value is not used). So the three input buffers end as
  they were and the result buffer holds the tile, whatever all four held before. Stated for any float instance.
-/
import proofs.«161334_j49478023250329_1_alg».proof.Proof.Gen.KernelIdeal.Launch
import proofs.«161334_j49478023250329_1_alg».proof.Proof.Gen.KernelIdeal.Skeleton
import proofs.«161334_j49478023250329_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.BodyRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging buffers holding `x0`, `x1`, `x2` and anything, the body runs to the continuation with the first
    three unchanged and the fourth at the tile `k0_pay1 x0 x1 x2`: the one store covers the buffer, so what was there
    before is gone, and each load through the whole-buffer rectangle reads the contents. -/
theorem sound_kernel (c : Dev nD) (E : Set ℕ) (i : grid0.Coords)
    (arg1 : Memref sig .tc .vmem S100x128 .bf16) (harg1 : arg1.IsWhole) (arg2 : Memref sig .tc .vmem S8192x128 .f32) (harg2 : arg2.IsWhole)
    (arg3 : Memref sig .tc .vmem S1x8192 .i32) (harg3 : arg3.IsWhole) (arg4 : Memref sig .tc .vmem S100x8192 .f32) (harg4 : arg4.IsWhole)
    (x0 : Vec F S100x128 .bf16) (x1 : Vec F S8192x128 .f32) (x2 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__cross_kernel i arg1 harg1 arg2 harg2 arg3 harg3 arg4 harg4) K := by
  simp only [cc0__cross_kernel_eq_skeleton]; unfold cc0__cross_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one piece written is the whole-buffer rectangle: reading back gives its payload, and each load of a
  -- whole-buffer rectangle is the buffer's contents
  have hz : (![0, 0] : Fin 2 → Nat) = fun _ => 0 := funext fun a => by fin_cases a <;> rfl
  rw [View.read_writes_eq_canon _ _ _ (fun y => ⟨_, List.mem_singleton_self _, View.mem_set_unit_zero hz inb_S100x8192_S100x8192_0_0 y⟩)]
  sl_unfold_words
  rw [View.canon_unit_zero hz]
  simp only [View.readAt_eq_ld, View.ld_unit_zero (S := S100x128) hz, View.ld_unit_zero (S := S8192x128) hz, View.ld_unit_zero (S := S1x8192) hz]

end Cert.KernelIdeal.BodyRun

end
-- ==== Proof.Cell.lean ====
/-
  One entry of the cross adjacency, as a function of one token row, one node row, the row's group and the node's
  pseudo-label: the similarity is the logistic of the rows' inner product over the 128 features; the entry keeps it
  where it reaches the pruning threshold (the f32 nearest to 0.1) and the node's label is the token's group, and is
  zero elsewhere. Both programs compute exactly this at every (token, node) pair; the kernel block by block along
  the nodes, the reference over the whole arrays at once.
-/
import Idealize.ShloMosaic.PureOps.Ideal
import Idealize.ShloMosaic.PureOps.Ideal.Laws
import Idealize.ShloMosaic.Lib.IdealHost
import Idealize.ShloMosaic.Lib.ValueIdx

noncomputable section

namespace Cert.CrossCell

open Idealize.ShloMosaic

/-- The similarity of a token row `a` and a node row `b`: the logistic of their inner product. -/
def sim (a b : Fin 128 → EReal) : EReal := Ideal.logistic (∑ k : Fin 128, a k * b k)

/-- The entry: the similarity where it is at least the threshold and the group `g` is the label `cl`, else zero. -/
def cell (a b : Fin 128 → EReal) (g cl : BitVec 32) : EReal :=
  Scalar.select
    (IntOp.andi (FloatOps.cmpf (F := Ideal) (φ := .f32) .oge (sim a b) (FloatOps.ofBits (F := Ideal) .f32 0x3DCCCCCD#32))
      (IntOp.cmpi .eq g cl))
    (sim a b) (FloatOps.ofBits (F := Ideal) .f32 0x00000000#32)

/-- The logistic is the quotient the reference spells out: one over one plus the exponential of the negation. -/
theorem logistic_eq_quotient (x : EReal) :
    Ideal.logistic x
      = FloatOps.hostDivf (F := Ideal) (φ := .f32) (FloatOps.ofBits (F := Ideal) .f32 0x3F800000#32)
          (FloatOps.addf (F := Ideal) (φ := .f32) (FloatOps.ofBits (F := Ideal) .f32 0x3F800000#32)
            (FloatOps.hostUnary (F := Ideal) (φ := .f32) .exp (FloatOps.hostNegf (F := Ideal) (φ := .f32) x))) := by
  rw [Ideal.ofBits_def, Ideal.ofBits_one_f32]
  rfl

/-- Equality of two labels does not depend on the order they are compared in. -/
theorem cmpi_eq_comm (a b : BitVec 32) : IntOp.cmpi .eq a b = IntOp.cmpi .eq b a := by
  have e : (a == b) = (b == a) := by
    rw [Bool.eq_iff_iff, beq_iff_eq, beq_iff_eq]
    exact eq_comm
  unfold IntOp.cmpi
  simp only [e]

end Cert.CrossCell

end
-- ==== Proof.PayCell.lean ====
/-
  The kernel's block payload read at one entry. At a grid point the body loads the resident token rows `X0`
  (100 × 128), the node rows `X1` of the point's block (8192 × 128) and the block's labels `X2` (1 × 8192), and stores
  one 100 × 8192 tile. Entry (r, j) of that tile depends on row r of `X0`, row j of `X1` and label j of `X2` only:
  the matrix product contracts the 128 features, the transposition only re-indexes the node rows, and the
  row's group is r / 10 (the floor division the body spells with a sign correction that never fires on 0 ≤ r < 100).
-/
import proofs.«161334_j49478023250329_1_alg».proof.Proof.Gen.KernelIdeal.Skeleton
import proofs.«161334_j49478023250329_1_alg».proof.Proof.Cell
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Group.Finset.Defs
import Mathlib.Algebra.BigOperators.Group.Finset.Basic

noncomputable section

namespace Cert.KernelIdeal.PayCell

open Cert.KernelIdeal Cert.KernelIdeal.Gen Idealize.ShloMosaic Idealize.ShloMosaic.ValueIdx Cert.CrossCell

/-! ## The outer shape: a masked select, lane by lane -/

/-- A select whose condition is the conjunction of "the logistic reaches a threshold" and "two integer vectors agree",
    read at one index. Every operation involved acts entry by entry, so the entry is the same scalar expression of the
    operands' entries at that index. -/
theorem masked_apply {s : Shape} (M : FVec Ideal s .f32) (G L : IVec s 32) (t z : Ideal .f32) (i : s.Idx) :
    select (andi (cmpf .oge (logistic M) (broadcast s t)) (cmpi .eq G L)) (logistic M) (broadcast s z) i
      = Scalar.select (IntOp.andi (FloatOps.cmpf .oge (FloatOps.logistic (M i)) t) (IntOp.cmpi .eq (G i) (L i)))
          (FloatOps.logistic (M i)) z := rfl

/-! ## The matrix product at (r, j): the inner product of token row r and node row j

The product is [100, 128] × [128, 8192] → [100, 8192], contracting the left operand's axis 1 with the right
operand's axis 0. At output index i and contraction position q the left operand is read at (i 0, q) and the right at
(q, i 1): one statement per operand axis. -/

/-- The left operand's row is the output's row. -/
theorem lhs_ax0 (i : S100x8192.Idx) (q : dot_S100x128_S128x8192_S100x8192_1_0_0_1_n_n.contr.Idx) :
    (dot_S100x128_S128x8192_S100x8192_1_0_0_1_n_n.lhsIdx i q 0).val = (i 0).val := by
  unfold DotDims.lhsIdx
  rw [dif_neg (show ¬(0 : Fin S100x128.rank) ∈ dot_S100x128_S128x8192_S100x8192_1_0_0_1_n_n.lhsBatch by decide),
    dif_pos (show (0 : Fin S100x128.rank) ∈ dot_S100x128_S128x8192_S100x8192_1_0_0_1_n_n.lhsNonContracting by decide)]
  rfl

/-- The left operand's column is the contraction position. -/
theorem lhs_ax1 (i : S100x8192.Idx) (q : dot_S100x128_S128x8192_S100x8192_1_0_0_1_n_n.contr.Idx) :
    (dot_S100x128_S128x8192_S100x8192_1_0_0_1_n_n.lhsIdx i q 1).val = (q ⟨0, by decide⟩).val :=
  dot_S100x128_S128x8192_S100x8192_1_0_0_1_n_n.lhsIdx_val_of_single rfl i q

/-- The right operand's row is the contraction position. -/
theorem rhs_ax0 (i : S100x8192.Idx) (q : dot_S100x128_S128x8192_S100x8192_1_0_0_1_n_n.contr.Idx) :
    (dot_S100x128_S128x8192_S100x8192_1_0_0_1_n_n.rhsIdx i q 0).val = (q ⟨0, by decide⟩).val :=
  dot_S100x128_S128x8192_S100x8192_1_0_0_1_n_n.rhsIdx_val_of_single rfl i q

/-- The right operand's column is the output's column. -/
theorem rhs_ax1 (i : S100x8192.Idx) (q : dot_S100x128_S128x8192_S100x8192_1_0_0_1_n_n.contr.Idx) :
    (dot_S100x128_S128x8192_S100x8192_1_0_0_1_n_n.rhsIdx i q 1).val = (i 1).val := by
  unfold DotDims.rhsIdx
  rw [dif_neg (show ¬(1 : Fin S128x8192.rank) ∈ dot_S100x128_S128x8192_S100x8192_1_0_0_1_n_n.rhsBatch by decide),
    dif_pos (show (1 : Fin S128x8192.rank) ∈ dot_S100x128_S128x8192_S100x8192_1_0_0_1_n_n.rhsNonContracting by decide)]
  rfl

/-- The product of the token rows with the transposed node rows, accumulated into zero, at (r, j): the sum over the
    128 features k of X0[r, k] · X1[j, k]. The reshape to the same shape is the identity; on the extended reals the
    change of format is the identity; the transposition reads the node rows at (j, k) where the product asks for
    (k, j); and the one-axis contraction index is re-indexed by its single coordinate. -/
theorem mm_apply (X0 : Vec Ideal S100x128 .bf16) (X1 : Vec Ideal S8192x128 .f32) (r : Fin 100) (j : Fin 8192) :
    matmul (F := Ideal) (φ₁ := .bf16) (φ₂ := .bf16) dot_S100x128_S128x8192_S100x8192_1_0_0_1_n_n none
        (shapeCast S100x128 X0 shapeCasts_S100x128_S100x128)
        (transpose S128x8192 [1, 0] (truncf .bf16 X1 bitsLt_bf16_f32) transposes_S8192x128_p1_0_S128x8192)
        (constant S100x8192 .f32 0x00000000#32) (ix2 r j)
      = ∑ k : Fin 128, (X0 (ix2 r k) : EReal) * (X1 (ix2 j k) : EReal) := by
  rw [shapeCast_self]
  show FloatOps.matmul _ _ _ _ _ _ = _
  rw [Ideal.matmul_constant_zero_apply,
    ← Equiv.sum_comp (contrEquiv1 dot_S100x128_S128x8192_S100x8192_1_0_0_1_n_n 128 rfl rfl).symm]
  refine Finset.sum_congr rfl fun k _ => ?_
  have hk := contrEquiv1_symm_val dot_S100x128_S128x8192_S100x8192_1_0_0_1_n_n 128 rfl rfl k
  congr 1
  · -- the left factor: X0 at (r, k)
    refine congrArg X0 (funext fun a => Fin.ext ?_)
    match a with
    | ⟨0, _⟩ => exact lhs_ax0 _ _
    | ⟨1, _⟩ => exact (lhs_ax1 _ _).trans hk
  · -- the right factor: the transposed node rows at (k, j) are X1 at (j, k)
    refine (transpose_apply [1, 0] _ transposes_S8192x128_p1_0_S128x8192 _ (ix2 j k) ?_).trans rfl
    intro b
    match b with
    | ⟨0, _⟩ => exact ((rhs_ax0 (ix2 r j) _).trans hk).symm
    | ⟨1, _⟩ => exact (rhs_ax1 (ix2 r j) _).symm

/-! ## The label at (r, j): label j -/

/-- The label row broadcast down the 100 token rows: entry (r, j) is label j. -/
theorem lab_apply (X2 : Vec Ideal S1x8192 .i32) (r : Fin 100) (j : Fin 8192) :
    broadcastTo S100x8192 (shapeCast S1x8192 X2 shapeCasts_S1x8192_S1x8192) broadcasts_S1x8192_S100x8192 (ix2 r j)
      = X2 (ix2 (0 : Fin 1) j) := by
  rw [shapeCast_self]
  refine broadcastTo_apply X2 broadcasts_S1x8192_S100x8192 (ix2 r j) (ix2 (0 : Fin 1) j) ?_
  intro a
  match a with
  | ⟨0, _⟩ => rfl
  | ⟨1, _⟩ => rfl

/-! ## The group at (r, j): r / 10 -/

/-- The floor division of a 32-bit word by 10 as the body spells it: the truncating signed quotient, less one where
    the sign of the dividend differs from the sign of 10 and the remainder is not zero. -/
def grpWord (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 10#32 0#32)) (Scalar.extui (Scalar.cmpi .slt 10#32 0#32))))
      (IntOp.cmpi .ne (IntOp.remsi .vector x 10#32) 0#32))
    (IntOp.subi (IntOp.divsi .vector x 10#32) 1#32)
    (IntOp.divsi .vector x 10#32)

/-- On the row numbers 0 ≤ r < 100 that spelling is the natural quotient r / 10: the dividend is never negative, so
    the correction never applies and the signed quotient is the natural one. A closed statement over one hundred
    32-bit words, checked by evaluation. -/
theorem grpWord_row : ∀ r : Fin 100, grpWord (BitVec.ofNat 32 r.val) = BitVec.ofNat 32 (r.val / 10) := by
  decide +kernel

/-- The group column broadcast along the 8192 nodes: entry (r, j) is the group r / 10 of row r. The column is the
    spelled floor division applied to the row counter, and the row counter at row r is the word of r. -/
theorem grp_apply (r : Fin 100) (j : Fin 8192) :
    broadcastTo S100x8192
        (select
          (andi
            (cmpi .ne
              (subi
                (extui 32 (cmpi .sgt (iota .tc S100x1 32 [0] iota_S100x1_d0_w32) (broadcast S100x1 0#32)) natLt_1_32)
                (extui 32 (cmpi .slt (iota .tc S100x1 32 [0] iota_S100x1_d0_w32) (broadcast S100x1 0#32)) natLt_1_32))
              (broadcast S100x1
                (Scalar.subi (Scalar.extui (Scalar.cmpi .sgt 10#32 0#32)) (Scalar.extui (Scalar.cmpi .slt 10#32 0#32)))))
            (cmpi .ne (remsi (iota .tc S100x1 32 [0] iota_S100x1_d0_w32) (broadcast S100x1 10#32)) (broadcast S100x1 0#32)))
          (subi (divsi (iota .tc S100x1 32 [0] iota_S100x1_d0_w32) (broadcast S100x1 10#32)) (broadcast S100x1 1#32))
          (divsi (iota .tc S100x1 32 [0] iota_S100x1_d0_w32) (broadcast S100x1 10#32)))
        broadcasts_S100x1_S100x8192 (ix2 r j)
      = BitVec.ofNat 32 (r.val / 10) := by
  refine (broadcastTo_apply _ broadcasts_S100x1_S100x8192 (ix2 r j) (ix2 r (0 : Fin 1)) ?_).trans ?_
  · intro a
    match a with
    | ⟨0, _⟩ => rfl
    | ⟨1, _⟩ => rfl
  · show grpWord (iota .tc S100x1 32 [0] iota_S100x1_d0_w32 (ix2 r (0 : Fin 1))) = _
    rw [iota_single_apply]
    exact grpWord_row r

/-! ## The payload at (r, j) -/

/-- Entry (r, j) of the tile the body stores is the cross-adjacency entry of token row r, the block's node row j,
    the group r / 10 and the block's label j. -/
theorem pay_apply (X0 : Vec Ideal S100x128 .bf16) (X1 : Vec Ideal S8192x128 .f32) (X2 : Vec Ideal S1x8192 .i32)
    (r : Fin 100) (j : Fin 8192) :
    k0_pay1 (F := Ideal) X0 X1 X2 (ix2 r j)
      = cell (fun k => X0 (ix2 r k)) (fun k => X1 (ix2 j k)) (BitVec.ofNat 32 (r.val / 10)) (X2 (ix2 (0 : Fin 1) j)) := by
  unfold k0_pay1
  rw [masked_apply, mm_apply, grp_apply, lab_apply]
  rfl

end Cert.KernelIdeal.PayCell

end
-- ==== Proof.RefCell.lean ====
/-
  The reference's cross adjacency read at one entry (p, t, n): the host program forms the full [10, 10, 500000]
  similarity by one dot_general over the 128 features, the logistic as one over one plus the exponential of the
  negation, compares with the threshold, and masks with "label n equals group p" broadcast over the ten tokens of
  the group. Entry by entry that is the cross-adjacency entry of token row (p, t), node row n, group p, label n.
-/
import proofs.«161334_j49478023250329_1_alg».proof.Proof.Gen.ReferenceIdeal.Read
import proofs.«161334_j49478023250329_1_alg».proof.Proof.Cell
import Idealize.ShloMosaic.Lib.ValueIdx
import Idealize.ShloMosaic.PureOps.Ideal.Laws

noncomputable section

namespace Cert.ReferenceIdeal.RefCell

open Cert.ReferenceIdeal Cert.ReferenceIdeal.Gen Idealize.ShloMosaic Idealize.ShloMosaic.ValueIdx Cert.CrossCell

open Cert.ReferenceIdeal.Read in
/-- The left operand of the inner product at entry (p, t, n), feature k, is token row (p, t) at feature k. -/
theorem lidx_at (p t : Fin 10) (n : Fin 500000) (k : Fin 128) :
    lidx_main_v10 (ix3 p t n) k = ix3 p t k :=
  funext fun a => Fin.ext (by
    match a with
    | ⟨0, _⟩ => rfl
    | ⟨1, _⟩ => rfl
    | ⟨2, _⟩ => rfl)

open Cert.ReferenceIdeal.Read in
/-- The right operand of the inner product at entry (p, t, n), feature k, is node row n at feature k. -/
theorem ridx_at (p t : Fin 10) (n : Fin 500000) (k : Fin 128) :
    ridx_main_v10 (ix3 p t n) k = ix2 n k :=
  funext fun a => Fin.ext (by
    match a with
    | ⟨0, _⟩ => rfl
    | ⟨1, _⟩ => rfl)

open Cert.ReferenceIdeal.Read in
/-- The label read through the chain of broadcasts at entry (p, t, n) is the label of node n. -/
theorem label_idx_at (p t : Fin 10) (n : Fin 500000) :
    idx_main_v17 (idx_main_v20 (idx_main_v25 (idx_main_v26 (ix3 p t n)))) = ix1 n :=
  funext fun a => Fin.ext (by
    match a with
    | ⟨0, _⟩ => rfl)

open Cert.ReferenceIdeal.Read in
/-- The group number read through the chain of broadcasts at entry (p, t, n) is the iota at p. -/
theorem group_idx_at (p t : Fin 10) (n : Fin 500000) :
    idx_main_v19 (idx_main_v21 (idx_main_v25 (idx_main_v26 (ix3 p t n)))) = ix1 p :=
  funext fun a => Fin.ext (by
    match a with
    | ⟨0, _⟩ => rfl)

/-- Entry (p, t, n) of the reference's cross adjacency is the cross-adjacency entry of token row (p, t), node row n,
    group p and label n. -/
theorem ref_apply (A0 : (⟨S10x10x128, .f32⟩ : BufTy).Contents (Elt Ideal)) (A1 : (⟨S500000x128, .f32⟩ : BufTy).Contents (Elt Ideal))
    (A2 : (⟨S500000, .i32⟩ : BufTy).Contents (Elt Ideal)) (p t : Fin 10) (n : Fin 500000) :
    Cert.ReferenceIdeal.Read.val_main_v28 (F := Ideal) A0 A1 A2 (ix3 p t n)
      = cell (fun k => A0 (ix3 p t k)) (fun k => A1 (ix2 n k)) (BitVec.ofNat 32 p.val) (A2 (ix1 n)) := by
  open Cert.ReferenceIdeal.Read in
  rw [val_main_v28_apply, val_main_v27_apply, val_main_v24_apply, val_main_v26_apply, val_main_v25_apply,
    val_main_v22_apply, val_main_v20_apply, val_main_v17_apply, val_main_v21_apply, val_main_v19_apply,
    val_main_v18_apply, val_main_v16_apply, val_main_v15_apply, val_main_cst_4_apply, val_main_v14_apply,
    val_main_v13_apply, val_main_cst_3_apply, val_main_v12_apply, val_main_v11_apply, val_main_v10_apply,
    val_main_v23_apply, val_main_cst_5_apply, val_main_call1_v1_apply, val_main_call1_v0_apply,
    val_main_cst_6_apply, label_idx_at, group_idx_at]
  simp only [lidx_at, ridx_at]
  rw [← logistic_eq_quotient, cmpi_eq_comm]
  rfl

end Cert.ReferenceIdeal.RefCell

end
-- ==== Proof.HostVals.lean ====
/-
  What the host lines before the kernel region leave in the buffers the proof reads, as terms of the launch
  contents: the flattened tokens narrowed to bf16 (the region's resident operand), the labels as a one-row array
  (the region's third operand), the stacked tokens-then-nodes array and the inner adjacency (two of the program's
  three results, which the region and the line after it never touch).
-/
import proofs.«161334_j49478023250329_1_alg».proof.Proof.Gen.KernelIdeal.Frame
import Idealize.ShloMosaic.Lib.StableHlo.Run

set_option maxRecDepth 16384

noncomputable section

namespace Cert.KernelIdeal.HostVals

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The region's resident operand: the tokens flattened to 100 rows and narrowed to bf16. -/
theorem v12_eq (c : Dev nD) :
    (V m c main_v12 : S100x128.Idx → Elt F .bf16)
      = truncf .bf16 (shapeCast S100x128 (m ((c.tc : Thread nD τ).loc main_arg0)) shapeCasts_S10x10x128_S100x128) bitsLt_bf16_f32 := by
  -- The buffer's contents are the twenty host lines folded over the launch contents and read at this one buffer.
  -- Of those lines only the narrowing writes it, from the flattened tokens, which only the flattening line writes,
  -- from the tokens, which no line writes: every other line leaves what it finds.
  show StableHlo.after (List.flatten [hostOps0, hostOps0_1, hostOps0_2]) (fun b => m (c, b)) (Proc.devRef .tc main_v12) = _
  simp only [Gen.hostOps0, Gen.hostOps0_1, Gen.hostOps0_2, List.flatten_cons, List.flatten_nil, List.append_nil,
    List.cons_append, List.nil_append]
  after_results
  rfl

/-- The region's third operand: the labels as a 1 × 500000 array. -/
theorem v13_eq (c : Dev nD) :
    (V m c main_v13 : S1x500000.Idx → Elt F .i32)
      = shapeCast S1x500000 (m ((c.tc : Thread nD τ).loc main_arg2)) shapeCasts_S500000_S1x500000 := by
  -- Only the last line writes this buffer: the labels, which no line writes, viewed as one row.
  show StableHlo.after (List.flatten [hostOps0, hostOps0_1, hostOps0_2]) (fun b => m (c, b)) (Proc.devRef .tc main_v13) = _
  simp only [Gen.hostOps0, Gen.hostOps0_1, Gen.hostOps0_2, List.flatten_cons, List.flatten_nil, List.append_nil,
    List.cons_append, List.nil_append]
  after_results
  rfl

/-- The first result: the flattened tokens stacked on the node features. -/
theorem v11_eq (c : Dev nD) :
    (V m c main_v11 : S500100x128.Idx → Elt F .f32)
      = concatenate S500100x128 0 [⟨S100x128, (shapeCast _ (m ((c.tc : Thread nD τ).loc main_arg0)) shapeCasts_S10x10x128_S100x128)⟩, ⟨S500000x128, (m ((c.tc : Thread nD τ).loc main_arg1))⟩] concatenates_S100x128_S500000x128_S500100x128_d0 := by
  -- Only the stacking line writes this buffer, from the flattened tokens (written once, by the flattening line)
  -- and the node features, which no line writes.
  show StableHlo.after (List.flatten [hostOps0, hostOps0_1, hostOps0_2]) (fun b => m (c, b)) (Proc.devRef .tc main_v11) = _
  simp only [Gen.hostOps0, Gen.hostOps0_1, Gen.hostOps0_2, List.flatten_cons, List.flatten_nil, List.append_nil,
    List.cons_append, List.nil_append]
  after_results
  rfl

/-- The inner adjacency as one function of the tokens: the per-group similarities, pruned below the inner threshold. -/
def innerAdj (x0 : (⟨S10x10x128, .f32⟩ : BufTy).Contents (Elt F)) : (⟨S10x10x10, .f32⟩ : BufTy).Contents (Elt F) :=
  select (cmpf .olt (Host.divf (broadcastInDim S10x10x10 ![] bcast_S_S10x10x10 (constant S_ .f32 0x3F800000#32)) (addf (broadcastInDim S10x10x10 ![] bcast_S_S10x10x10 (constant S_ .f32 0x3F800000#32)) (Host.exp (Host.negf (Host.dotGeneral dot_S10x10x128_S10x10x128_S10x10x10_2_2_1_1_0_0 none x0 x0))))) (broadcastInDim S10x10x10 ![] bcast_S_S10x10x10 (constant S_ .f32 0x3C23D70A#32)))
    (broadcastInDim S10x10x10 ![] bcast_S_S10x10x10 (id (constant S_ .f32 0x00000000#32)))
    (Host.divf (broadcastInDim S10x10x10 ![] bcast_S_S10x10x10 (constant S_ .f32 0x3F800000#32)) (addf (broadcastInDim S10x10x10 ![] bcast_S_S10x10x10 (constant S_ .f32 0x3F800000#32)) (Host.exp (Host.negf (Host.dotGeneral dot_S10x10x128_S10x10x128_S10x10x10_2_2_1_1_0_0 none x0 x0)))))

/-- The second result: the inner adjacency of the tokens. -/
theorem v9_eq (c : Dev nD) :
    (V m c main_v9 : S10x10x10.Idx → Elt F .f32) = innerAdj (F := F) (m ((c.tc : Thread nD τ).loc main_arg0)) := by
  -- The selection line writes this buffer last; each of its three operands is written once, by an earlier line,
  -- and unwinding those writes back to the tokens gives the stated term: the logistic of the per-group products,
  -- compared with the threshold, choosing between zero and the logistic itself.
  show StableHlo.after (List.flatten [hostOps0, hostOps0_1, hostOps0_2]) (fun b => m (c, b)) (Proc.devRef .tc main_v9) = _
  simp only [Gen.hostOps0, Gen.hostOps0_1, Gen.hostOps0_2, List.flatten_cons, List.flatten_nil, List.append_nil,
    List.cons_append, List.nil_append]
  after_results
  rfl

end Cert.KernelIdeal.HostVals

end
-- ==== Proof.BlockReads.lean ====
/-
  The pipeline's blocks read at an entry. The node axis of 500000 is cut into 62 blocks of 8192; the last block keeps
  only 500000 − 61 · 8192 = 288 columns inside the array, and the transfers of that point move only those. Entry
  (j, k) of the node-row block of point t is row 8192 · t + j of the node array; entry (0, j) of the label block is
  label 8192 · t + j; entry (r, j) of the result block is entry (r, 8192 · t + j) of the result; the token block is
  the whole token array at every point. Every column n of the result lies in the block of point n / 8192.
-/
import proofs.«161334_j49478023250329_1_alg».proof.Proof.Gen.KernelIdeal.Frame
import Idealize.ShloMosaic.Lib.Pipeline.Value
import Idealize.ShloMosaic.Lib.ValueIdx

set_option maxRecDepth 16384

noncomputable section

namespace Cert.KernelIdeal.BlockReads

open Cert.KernelIdeal Cert.KernelIdeal.Gen Idealize.ShloMosaic Idealize.ShloMosaic.TcCoe Idealize.ShloMosaic.ValueIdx Idealize.SL.Sem

variable {F : FTy → Type} [FloatOps F]

/-- The number of node columns of point `t`'s block that lie inside the array: 288 at the last point, else all 8192. -/
def ext (t : Fin grid0.N) : Nat := if t.val = 61 then 288 else 8192

/-- A point's number is below 62. -/
theorem t_lt (t : Fin grid0.N) : t.val < 62 := by
  exact Nat.lt_of_lt_of_eq t.isLt N_0

/-! The closed forms over the grid, each decided once over all 62 points: what each window's transfer moves on each
    axis, and each window's block index on each axis. -/

theorem xsize1_all : ∀ t : Fin grid0.N,
    win0_1.xsize (grid0.coords t) 0 = (if t.val = 61 then 288 else 8192) ∧ win0_1.xsize (grid0.coords t) 1 = 128 := by
  decide +kernel
theorem xsize2_all : ∀ t : Fin grid0.N,
    win0_2.xsize (grid0.coords t) 0 = 1 ∧ win0_2.xsize (grid0.coords t) 1 = (if t.val = 61 then 288 else 8192) := by
  decide +kernel
theorem xsize3_all : ∀ t : Fin grid0.N,
    win0_3.xsize (grid0.coords t) 0 = 100 ∧ win0_3.xsize (grid0.coords t) 1 = (if t.val = 61 then 288 else 8192) := by
  decide +kernel
theorem index0_all : ∀ t : Fin grid0.N, win0_0.index t 0 = 0 ∧ win0_0.index t 1 = 0 := by decide +kernel
theorem index1_all : ∀ t : Fin grid0.N, win0_1.index t 0 = t.val ∧ win0_1.index t 1 = 0 := by decide +kernel
theorem index2_all : ∀ t : Fin grid0.N, win0_2.index t 0 = 0 ∧ win0_2.index t 1 = t.val := by decide +kernel
theorem index3_all : ∀ t : Fin grid0.N, win0_3.index t 0 = 0 ∧ win0_3.index t 1 = t.val := by decide +kernel

theorem ext_le (t : Fin grid0.N) : ext t ≤ 8192 := by
  unfold ext
  split <;> omega

/-- A column the transfer moves is a column of the array. -/
theorem base_add_lt (t : Fin grid0.N) (j : Nat) (hj : j < ext t) : 8192 * t.val + j < 500000 := by
  -- below the last point a whole block fits: 8192 · 60 + 8192 ≤ 500000; at the last, 8192 · 61 + 288 = 500000
  have ht := t_lt t
  unfold ext at hj
  split at hj <;> omega

/-- The result window's moved part at point `t`: all 100 rows, `ext t` columns. -/
theorem xsize3_0 (t : Fin grid0.N) : win0_3.xsize (grid0.coords t) 0 = 100 := by
  exact (xsize3_all t).1
theorem xsize3_1 (t : Fin grid0.N) : win0_3.xsize (grid0.coords t) 1 = ext t := by
  unfold ext
  exact (xsize3_all t).2

/-- The token block is the token array. -/
theorem blk0_apply (B : S100x128.Idx → Elt F .bf16) (t : Fin grid0.N) (r : Fin 100) (k : Fin 128) :
    (win0_0.blk t).view.read (Elt F) B (ix2 r k) = B (ix2 r k) := by
  -- the block's entry sits in the array, on each axis, at block index · block size + its coordinate; both block
  -- indices are zero at every point
  show B ((win0_0.blk t).view.emb (ix2 r k)) = B (ix2 r k)
  refine congrArg B (funext fun a => Fin.ext ?_)
  match a with
  | ⟨0, _⟩ =>
    refine (Pipeline.Window.rect_emb_val win0_0 t (ix2 r k) 0).trans ?_
    rw [(index0_all t).1]
    show 0 * 100 + r.val = r.val
    omega
  | ⟨1, _⟩ =>
    refine (Pipeline.Window.rect_emb_val win0_0 t (ix2 r k) 1).trans ?_
    rw [(index0_all t).2]
    show 0 * 128 + k.val = k.val
    omega

/-- A node-row buffer just fetched at point `t`, read at a row the fetch moved, is the array's row 8192 · t + j,
    whatever the buffer held before. -/
theorem fill1_apply (B : S500000x128.Idx → Elt F .f32) (d : S8192x128.Idx → Elt F .f32) (t : Fin grid0.N)
    (j : Fin 8192) (hj : j.val < ext t) (k : Fin 128) :
    win0_1.fill (grid0.coords t) d ((win0_1.blk t).view.read (Elt F) B) (ix2 j k)
      = B (ix2 (⟨8192 * t.val + j.val, base_add_lt t j.val hj⟩ : Fin 500000) k) := by
  -- the entry is one the fetch moved: its row is below the moved row count, its column below 128
  have hm : win0_1.moved (grid0.coords t) (ix2 j k) = true := by
    rw [Pipeline.Window.moved_iff]
    intro a
    match a with
    | ⟨0, _⟩ =>
      show j.val < win0_1.xsize (grid0.coords t) 0
      rw [(xsize1_all t).1]; exact hj
    | ⟨1, _⟩ =>
      show k.val < win0_1.xsize (grid0.coords t) 1
      rw [(xsize1_all t).2]; exact k.isLt
  unfold Pipeline.Window.fill
  rw [dif_pos hm]
  -- so the buffer holds the block's entry there, which is the array's at block index · block size + the coordinate:
  -- row t · 8192 + j, column 0 · 128 + k
  show B ((win0_1.blk t).view.emb _) = B _
  refine congrArg B (funext fun a => Fin.ext ?_)
  match a with
  | ⟨0, _⟩ =>
    refine (Pipeline.Window.rect_emb_val win0_1 t _ 0).trans ?_
    rw [(index1_all t).1]
    show t.val * 8192 + j.val = 8192 * t.val + j.val
    omega
  | ⟨1, _⟩ =>
    refine (Pipeline.Window.rect_emb_val win0_1 t _ 1).trans ?_
    rw [(index1_all t).2]
    show 0 * 128 + k.val = k.val
    omega

/-- A label buffer just fetched at point `t`, read at a column the fetch moved, is label 8192 · t + j. -/
theorem fill2_apply (B : S1x500000.Idx → Elt F .i32) (d : S1x8192.Idx → Elt F .i32) (t : Fin grid0.N)
    (j : Fin 8192) (hj : j.val < ext t) :
    win0_2.fill (grid0.coords t) d ((win0_2.blk t).view.read (Elt F) B) (ix2 (0 : Fin 1) j)
      = B (ix2 (0 : Fin 1) (⟨8192 * t.val + j.val, base_add_lt t j.val hj⟩ : Fin 500000)) := by
  -- the entry is one the fetch moved: its one row is below 1, its column below the moved column count
  have hm : win0_2.moved (grid0.coords t) (ix2 (0 : Fin 1) j) = true := by
    rw [Pipeline.Window.moved_iff]
    intro a
    match a with
    | ⟨0, _⟩ =>
      show (0 : Fin 1).val < win0_2.xsize (grid0.coords t) 0
      rw [(xsize2_all t).1]; exact Nat.zero_lt_one
    | ⟨1, _⟩ =>
      show j.val < win0_2.xsize (grid0.coords t) 1
      rw [(xsize2_all t).2]; exact hj
  unfold Pipeline.Window.fill
  rw [dif_pos hm]
  -- so the buffer holds the block's entry there: the array's at row 0 · 1 + 0, column t · 8192 + j
  show B ((win0_2.blk t).view.emb _) = B _
  refine congrArg B (funext fun a => Fin.ext ?_)
  match a with
  | ⟨0, _⟩ =>
    refine (Pipeline.Window.rect_emb_val win0_2 t _ 0).trans ?_
    rw [(index2_all t).1]
    show 0 * 1 + (0 : Fin 1).val = (0 : Fin 1).val
    omega
  | ⟨1, _⟩ =>
    refine (Pipeline.Window.rect_emb_val win0_2 t _ 1).trans ?_
    rw [(index2_all t).2]
    show t.val * 8192 + j.val = 8192 * t.val + j.val
    omega

/-- The result block of point `t` of a whole-array function, read at a block entry. -/
theorem blk3_apply (G : S100x500000.Idx → Elt F .f32) (t : Fin grid0.N) (y : (win0_3.xblock (grid0.coords t)).Idx) :
    (win0_3.blk t).view.read (Elt F) G y
      = G (ix2 (⟨(y 0).val, by have h : (y 0).val < win0_3.xsize (grid0.coords t) 0 := (y 0).isLt; rw [xsize3_0] at h; exact h⟩ : Fin 100)
          (⟨8192 * t.val + (y 1).val, base_add_lt t (y 1).val (by have h : (y 1).val < win0_3.xsize (grid0.coords t) 1 := (y 1).isLt; rw [xsize3_1] at h; exact h)⟩ : Fin 500000)) := by
  -- the block's entry sits in the array at row 0 · 100 + its row, column t · 8192 + its column
  show G ((win0_3.blk t).view.emb y) = G _
  refine congrArg G (funext fun a => Fin.ext ?_)
  match a with
  | ⟨0, _⟩ =>
    refine (Pipeline.Window.rect_emb_val win0_3 t y 0).trans ?_
    rw [(index3_all t).1]
    show 0 * 100 + (y 0).val = (y 0).val
    omega
  | ⟨1, _⟩ =>
    refine (Pipeline.Window.rect_emb_val win0_3 t y 1).trans ?_
    rw [(index3_all t).2]
    show t.val * 8192 + (y 1).val = 8192 * t.val + (y 1).val
    omega

/-- The result's blocks cover it: column n lies in the block of point n / 8192, which writes it back. -/
theorem cover3 (i : S100x500000.Idx) :
    ∃ t : Fin cfg0.N, (cfg0.win 3).flush t = true ∧ i ∈ ((cfg0.win 3).blk t).view.set := by
  have h0 : (i 0).val < 100 := (i 0).isLt
  have h1 : (i 1).val < 500000 := (i 1).isLt
  -- the point is the column's quotient by the block width: below 62 since 500000 ≤ 62 · 8192
  have hq : (i 1).val / 8192 < grid0.N := by rw [N_0]; omega
  refine ⟨⟨(i 1).val / 8192, hq⟩, flush0_3 _, ?_⟩
  -- the block is the rectangle of rows 0 ‥ 100 and columns 8192 · t ‥ 8192 · t + (the columns inside the array)
  show i ∈ ((View.whole main_v14).slice (win0_3.rect ⟨(i 1).val / 8192, hq⟩)).set
  rw [View.set_slice_whole, Rect.mem_set_unit]
  intro a
  match a with
  | ⟨0, _⟩ =>
    show win0_3.index ⟨(i 1).val / 8192, hq⟩ 0 * 100 ≤ (i 0).val
      ∧ (i 0).val < win0_3.index ⟨(i 1).val / 8192, hq⟩ 0 * 100 + win0_3.xsize (grid0.coords ⟨(i 1).val / 8192, hq⟩) 0
    rw [(index3_all _).1, (xsize3_all _).1]
    omega
  | ⟨1, _⟩ =>
    show win0_3.index ⟨(i 1).val / 8192, hq⟩ 1 * 8192 ≤ (i 1).val
      ∧ (i 1).val < win0_3.index ⟨(i 1).val / 8192, hq⟩ 1 * 8192 + win0_3.xsize (grid0.coords ⟨(i 1).val / 8192, hq⟩) 1
    rw [(index3_all _).2, (xsize3_all _).2]
    show (i 1).val / 8192 * 8192 ≤ (i 1).val
      ∧ (i 1).val < (i 1).val / 8192 * 8192 + (if (i 1).val / 8192 = 61 then 288 else 8192)
    split <;> omega

end Cert.KernelIdeal.BlockReads

end
-- ==== Proof.IdealData.lean ====
/-
  The idealized kernel's run, with the result array named. Over the extended reals the matrix product is the sum over
  the 128 features, so entry (r, j) of the tile the body stores at a grid point depends on token row r, on row j of
  the point's node block and on label j of the point's label block only. On the columns the point's transfers move
  those are row 8192 · t + j of the node array and label 8192 · t + j, whatever the staging buffers hold past the
  array's end at the last point; so on the moved part the tile is block t of ONE whole-array function: the
  reference's cross adjacency with its two leading axes flattened (token row r = 10 · p + s belongs to group p = r / 10).
  The write-backs of the 62 points cover the result array, which therefore ends holding that function.
-/
import proofs.«161334_j49478023250329_1_alg».proof.Proof.Gen.KernelIdeal.Frame
import proofs.«161334_j49478023250329_1_alg».proof.Proof.IdealBody
import proofs.«161334_j49478023250329_1_alg».proof.Proof.PayCell
import proofs.«161334_j49478023250329_1_alg».proof.Proof.RefCell
import proofs.«161334_j49478023250329_1_alg».proof.Proof.HostVals
import proofs.«161334_j49478023250329_1_alg».proof.Proof.BlockReads
import Idealize.ShloMosaic.Lib.ValueIdx
import Idealize.ShloMosaic.Lib.Pipeline.FrameSuffix
import Idealize.ShloMosaic.Lib.Pipeline.Value
import Idealize.ShloMosaic.Lib.Tactic

set_option maxRecDepth 16384

noncomputable section

namespace Cert.KernelIdeal.Data

open Cert.KernelIdeal Cert.KernelIdeal.Gen Cert.KernelIdeal.BodyRun Cert.KernelIdeal.BlockReads Cert.KernelIdeal.PayCell Cert.KernelIdeal.HostVals Cert.CrossCell Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The result array as one function of the arguments -/

/-- The launch contents of the three arguments on core `c`. -/
abbrev tok (c : Dev nD) : S10x10x128.Idx → EReal := m ((c.tc : Thread nD τ).loc main_arg0)
abbrev nodes (c : Dev nD) : S500000x128.Idx → EReal := m ((c.tc : Thread nD τ).loc main_arg1)
abbrev labels (c : Dev nD) : S500000.Idx → BitVec 32 := m ((c.tc : Thread nD τ).loc main_arg2)

/-- The reference's cross adjacency of the launch arrays, [10, 10, 500000]. -/
def crossRef (c : Dev nD) : S10x10x500000.Idx → EReal :=
  Cert.ReferenceIdeal.Read.val_main_v28 (F := Ideal) (tok m c) (nodes m c) (labels m c)

theorem casts_back : S10x10x500000.ShapeCasts S100x500000 := by decide

/-- The same with the group and token axes flattened to 100 rows: what the kernel's result array ends holding. -/
def crossFlat (c : Dev nD) : S100x500000.Idx → EReal := shapeCast S100x500000 (crossRef m c) casts_back

/-- Row r of the flattened array is token r % 10 of group r / 10. -/
theorem crossFlat_apply (c : Dev nD) (r : Fin 100) (n : Fin 500000) :
    crossFlat m c (ix2 r n)
      = crossRef m c (ix3 (⟨r.val / 10, by omega⟩ : Fin 10) (⟨r.val % 10, by omega⟩ : Fin 10) n) := by
  unfold crossFlat
  exact shapeCast_apply (crossRef m c) casts_back (ix2 r n) _
    (by rewrite [Shape.rowMajor_val_three, Shape.rowMajor_val_two]
        show (r.val / 10 * 10 + r.val % 10) * 500000 + n.val = r.val * 500000 + n.val
        omega)

/-! ## The proof data -/

/-- After the body at point `t`: the token buffer at the token block; the node-row and label buffers at their blocks
    on the moved part; the result buffer, on the moved part, at block `t` of the flattened cross adjacency. Past the
    array's end the obligation states nothing; the filler is zero. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0#32 : BitVec 32)) (iblk m c 2 t)
    | ⟨3, _⟩ => win0_3.fill (grid0.coords t) (fun _ => (0 : EReal)) ((win0_3.blk t).view.read (Elt Ideal) (crossFlat m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => (0 : EReal)) (iblk m c 1 t) := by dsimp only [dats]
theorem after2 (c : Dev nD) (t : Fin cfg0.N) :
    (dats m 0 c).after 2 t = win0_2.fill (grid0.coords t) (fun _ => (0#32 : BitVec 32)) (iblk m c 2 t) := by dsimp only [dats]
theorem after3 (c : Dev nD) (t : Fin cfg0.N) :
    (dats m 0 c).after 3 t = win0_3.fill (grid0.coords t) (fun _ => (0 : EReal)) ((win0_3.blk t).view.read (Elt Ideal) (crossFlat m c)) := by
  dsimp only [dats]

/-- What the body finds: the token buffer at the token block (fetched once, left in place); the node-row and label
    buffers just fetched, their blocks on the moved part and anything elsewhere; the result buffer at anything. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk
  rw [A_eq]
theorem before2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk
  rw [A_eq]
theorem before3 (c : Dev nD) (t : Fin cfg0.N) (d) : (dats m 0 c).before 3 t d = d :=
  (dats m 0 c).before_out_reset 3 rfl t
    (by by_cases h : t.val = 0
        · exact .inl h
        · exact .inr ⟨h, flush0_3 _⟩) d

/-! ## The tile on the moved part -/

/-- On the columns point `t` moves, the tile the body stores from the token block and the just-fetched node-row and
    label buffers is block `t` of the flattened cross adjacency, whatever those buffers hold elsewhere. -/
theorem tile_cut (c : Dev nD) (t : Fin cfg0.N) (d1 : S8192x128.Idx → EReal) (d2 : S1x8192.Idx → BitVec 32) :
    win0_3.cut (grid0.coords t)
        (k0_pay1 (F := Ideal) (iblk m c 0 t) (win0_1.fill (grid0.coords t) d1 (iblk m c 1 t)) (win0_2.fill (grid0.coords t) d2 (iblk m c 2 t)))
      = (win0_3.blk t).view.read (Elt Ideal) (crossFlat m c) := by
  funext y
  have h0 : (y 0).val < 100 := by
    have h : (y 0).val < win0_3.xsize (grid0.coords t) 0 := (y 0).isLt
    rw [xsize3_0] at h; exact h
  have h1 : (y 1).val < ext t := by
    have h : (y 1).val < win0_3.xsize (grid0.coords t) 1 := (y 1).isLt
    rw [xsize3_1] at h; exact h
  have hy : win0_3.xinj (grid0.coords t) y
      = ix2 (⟨(y 0).val, h0⟩ : Fin 100) (⟨(y 1).val, lt_of_lt_of_le h1 (ext_le t)⟩ : Fin 8192) :=
    funext fun a => Fin.ext (by match a with | ⟨0, _⟩ => rfl | ⟨1, _⟩ => rfl)
  rw [blk3_apply]
  show k0_pay1 (F := Ideal) _ _ _ (win0_3.xinj (grid0.coords t) y) = _
  rw [hy, pay_apply, crossFlat_apply, crossRef, Cert.ReferenceIdeal.RefCell.ref_apply]
  refine congr (congr (congr (congrArg cell (funext fun k => ?_)) (funext fun k => ?_)) rfl) ?_
  · -- the token block is the token array at every point: the flattened, narrowed tokens, read at row r
    unfold iblk
    refine (blk0_apply (F := Ideal) (V m c main_v12) t _ k).trans ?_
    rw [v12_eq]
    show shapeCast S100x128 (tok m c) shapeCasts_S10x10x128_S100x128 (ix2 _ k) = _
    exact shapeCast_apply (tok m c) shapeCasts_S10x10x128_S100x128 (ix2 _ k) _
      (by rewrite [Shape.rowMajor_val_three, Shape.rowMajor_val_two]
          show ((y 0).val / 10 * 10 + (y 0).val % 10) * 128 + k.val = (y 0).val * 128 + k.val
          omega)
  · -- a moved row of the node-row buffer is the node array's row
    unfold iblk
    refine (fill1_apply (F := Ideal) (V m c main_arg1) d1 t _ h1 k).trans ?_
    rw [V_main_arg1]
  · -- a moved column of the label buffer is the label array's entry, through the one-row reshape
    unfold iblk
    refine (fill2_apply (F := Ideal) (V m c main_v13) d2 t _ h1).trans ?_
    rw [v13_eq]
    exact shapeCast_apply (labels m c) shapeCasts_S500000_S1x500000 (ix2 _ _) _
      (by rewrite [Shape.rowMajor_val_one, Shape.rowMajor_val_two]
          show 8192 * t.val + (y 1).val = 0 * 500000 + (8192 * t.val + (y 1).val)
          omega)

/-! ## The body obligation -/

/-- At every point: the token buffer is left as found; the node-row and label buffers are left as found, which on the
    moved part is their blocks; the result buffer holds the tile, which on the moved part is block `t` of the flattened
    cross adjacency — all the obligation of a window cut at the array's end asks. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0 m c t d0, before1 m c t d1, before2 m c t d2, before3 m c t d3]
  iapply (sound_kernel (F := Ideal) c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after0]; iexact H0
  isplitl [H1]
  · iexists d1; rw [after1, Window.cut_fill]; iexact H1
  isplitl [H2]
  · iexists d2; rw [after2, Window.cut_fill]; iexact H2
  · iexists k0_pay1 (F := Ideal) (iblk m c 0 t) (win0_1.fill (grid0.coords t) d1 (iblk m c 1 t)) (win0_2.fill (grid0.coords t) d2 (iblk m c 2 t))
    rw [after3, Window.cut_fill, ← tile_cut m c t d1 d2, Window.fill_cut]
    iexact H3

/-! ## The run, the frame, the result array -/

set_option backward.isDefEq.respectTransparency.types false in
/-- Every weakly fair execution of @main ends, with every array of the pipeline at what the write-backs leave and every
    other buffer at what the host line after the region leaves. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The result array after the 62 write-backs: each writes block `t` of the flattened cross adjacency on its moved part,
    and the blocks cover the array. -/
theorem final3 (c : Dev nD) : (dats m 0 c).arrAt 3 cfg0.N = crossFlat m c :=
  (dats m 0 c).arrAt_eq_of_cover 3 (crossFlat m c)
    (fun t _ => by
      show win0_3.cut (grid0.coords t) ((dats m 0 c).after 3 t) = _
      rw [after3]; exact win0_3.cut_fill _ _ _)
    cover3

end Cert.KernelIdeal.Data

end
-- ==== Proof.Results.lean ====
/-
  What the program's three results hold once the host line after the region has run, read off the contents the frame
  run computes: the stacked array and the inner adjacency were written before the region and are touched neither
  by the region nor by the line after it, so they hold what the region found; the cross adjacency is the region's
  result array, as the write-backs left it, with its leading axis of 100 split into 10 × 10.
-/
import proofs.«161334_j49478023250329_1_alg».proof.Proof.Gen.KernelIdeal.Frame
import Idealize.ShloMosaic.Lib.Pipeline.FrameSuffix
import Idealize.ShloMosaic.Lib.StableHlo.Run

set_option maxRecDepth 16384

noncomputable section

namespace Cert.KernelIdeal.Results

open Cert.KernelIdeal Cert.KernelIdeal.Gen Idealize.ShloMosaic Idealize.ShloMosaic.TcCoe Idealize.SL.Sem Idealize.ShloMosaic.StableHlo
open Idealize.ShloMosaic.Rounds
open Idealize.ShloMosaic.Pipeline (Dat)

variable {F : FTy → Type} [FloatOps F]
variable (m : (ℓ : Loc nD τ sig) → Buf (Elt F) ℓ)

/-- The stacked tokens-then-nodes array ends as the region found it. -/
theorem tail_v11 (dats : (p : Fin 1) → (c : Dev nD) → Dat τ (Elt F) Unit ℕ (UR sig nD τ) ℕ (cfgs p) c) (c : Dev nD) :
    Pipeline.afterTail₀ cfgs dats 0 (V0 m) [hostOps1] c main_v11 = V m c main_v11 := by
  unfold Pipeline.afterTail₀
  rw [StableHlo.after_of_forall_not_mem (b := Proc.devRef .tc main_v11) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_v11 (by exact (by decide : ∀ w, Pipeline.arrRef spec0 w ≠ main_v11))]

/-- The inner adjacency ends as the region found it. -/
theorem tail_v9 (dats : (p : Fin 1) → (c : Dev nD) → Dat τ (Elt F) Unit ℕ (UR sig nD τ) ℕ (cfgs p) c) (c : Dev nD) :
    Pipeline.afterTail₀ cfgs dats 0 (V0 m) [hostOps1] c main_v9 = V m c main_v9 := by
  unfold Pipeline.afterTail₀
  rw [StableHlo.after_of_forall_not_mem (b := Proc.devRef .tc main_v9) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_v9 (by exact (by decide : ∀ w, Pipeline.arrRef spec0 w ≠ main_v9))]

/-- The cross adjacency is the region's result array after every write-back, reshaped. -/
theorem tail_v15 (dats : (p : Fin 1) → (c : Dev nD) → Dat τ (Elt F) Unit ℕ (UR sig nD τ) ℕ (cfgs p) c) (c : Dev nD) :
    (Pipeline.afterTail₀ cfgs dats 0 (V0 m) [hostOps1] c main_v15 : S10x10x500000.Idx → Elt F .f32)
      = shapeCast S10x10x500000 ((dats 0 c).arrAt 3 cfg0.N : S100x500000.Idx → Elt F .f32) shapeCasts_S100x500000_S10x10x500000 := by
  unfold Pipeline.afterTail₀
  show StableHlo.after hostOps1 _ (Proc.devRef .tc main_v15) = _
  after_results
  generalize V0 m c = W
  have e := Pipeline.withArrays_arr spec0 launch0.win.arr_inj c W (fun w => (dats 0 c).arrAt w cfg0.N) 3
  exact congrArg (fun x : S100x500000.Idx → Elt F .f32 =>
    shapeCast S10x10x500000 x shapeCasts_S100x500000_S10x10x500000) e

/-- The three results are buffers no window stages. -/
theorem mem_rest_v11 : main_v11 ∈ Pipeline.restRefs sig spec0 := Pipeline.mem_restRefs_of main_v11 (by decide) (by decide)
theorem mem_rest_v9 : main_v9 ∈ Pipeline.restRefs sig spec0 := Pipeline.mem_restRefs_of main_v9 (by decide) (by decide)
theorem mem_rest_v15 : main_v15 ∈ Pipeline.restRefs sig spec0 := Pipeline.mem_restRefs_of main_v15 (by decide) (by decide)

end Cert.KernelIdeal.Results

end
-- ==== Proof.lean ====
/-
  The kernel computes three results from tokens [10, 10, 128], node features [500000, 128] and node labels [500000]:
  the flattened tokens stacked on the node features; the inner adjacency of each token group (the logistic of the
  group's Gram matrix, zeroed below the inner threshold); and the cross adjacency, entry (p, s, n) the logistic of the
  inner product of token (p, s) with node n, kept where it reaches the cross threshold and node n's label is p, zero
  elsewhere. The first two are computed by the same host operations in both programs. The third the reference computes
  over the whole arrays at once, the kernel in 62 blocks of 8192 nodes — the last keeping 288 — as a 100 × 8192 tile per
  block; over the extended reals a tile entry depends only on its token row, its node row and its label, so the tiles are
  the blocks of the reference's array with the group and token axes flattened, and the final reshape splits them again.
  The three frames: the word-level kernel's needs nothing of the tiles' contents; the idealized kernel's comes with its
  run; the reference is host operations only. The idealization rewrote no operation, so there is nothing to preserve.
-/
import proofs.«161334_j49478023250329_1_alg».proof.Defs
import proofs.«161334_j49478023250329_1_alg».proof.Proof.Gen.Kernel
import proofs.«161334_j49478023250329_1_alg».proof.Proof.Gen.KernelIdeal
import proofs.«161334_j49478023250329_1_alg».proof.Proof.Gen.ReferenceIdeal
import proofs.«161334_j49478023250329_1_alg».proof.Proof.Gen.Pre_finite_inputs
import proofs.«161334_j49478023250329_1_alg».proof.Proof.Gen.ReferenceIdeal.Run
import proofs.«161334_j49478023250329_1_alg».proof.Proof.Gen.ReferenceIdeal.Read
import proofs.«161334_j49478023250329_1_alg».proof.Proof.KernelFrame
import proofs.«161334_j49478023250329_1_alg».proof.Proof.IdealData
import proofs.«161334_j49478023250329_1_alg».proof.Proof.Results
import proofs.«161334_j49478023250329_1_alg».proof.Proof.HostVals
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.FrameRun.frame (F := Bits) m ρ

theorem frame_ki : Cert.frame_KernelIdeal := fun m ρ _ => Cert.KernelIdeal.Data.frame m ρ

/-- The reference is host operations only: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

open Cert.KernelIdeal Cert.KernelIdeal.Gen Cert.KernelIdeal.Data Cert.KernelIdeal.Results Cert.KernelIdeal.HostVals in
/-- Both idealized programs end with the same three results: the stacked array and the inner adjacency are one host
    term of the arguments in both; the kernel's result array ends at the reference's cross adjacency flattened, and the
    reshape after the region undoes the flattening. -/
theorem algebraic : Cert.algebraic_KernelIdeal_ReferenceIdeal := by
  intro m ρ m' ρ' _ hagree
  refine ⟨fun c => V m c main_v11, fun c => V m c main_v9, fun c => crossRef m c, ?_, ?_⟩
  · refine (θ_run Cert.KernelIdeal.defs _ _).mono (fun r h c => ⟨?_, ?_, ?_, ?_, ?_, ?_⟩) (run_main m ρ)
    · exact ((h c).2 main_v11 mem_rest_v11).trans (tail_v11 m (dats m) c)
    · exact ((h c).2 main_v9 mem_rest_v9).trans (tail_v9 m (dats m) c)
    · refine ((h c).2 main_v15 mem_rest_v15).trans ((tail_v15 m (dats m) c).trans ?_)
      rw [final3]
      exact shapeCast_shapeCast (crossRef m c) casts_back shapeCasts_S100x500000_S10x10x500000
    · exact ((h c).2 main_arg0 (Pipeline.mem_restRefs_of main_arg0 (by decide) (by decide))).trans (W_main_arg0 m (dats m) c)
    · exact ((h c).1 1).trans (((dats m 0 c).arrAt_in 1 rfl _).trans ((A_eq m c 1).trans (V_main_arg1 m c)))
    · exact ((h c).2 main_arg2 (Pipeline.mem_restRefs_of main_arg2 (by decide) (by decide))).trans (W_main_arg2 m (dats m) c)
  · refine (θ_run Cert.ReferenceIdeal.defs _ _).mono (fun r h c => ?_) (Cert.ReferenceIdeal.Value.run (F := Ideal) m' ρ')
    obtain ⟨h30, h9, h28, ha0, ha1, ha2⟩ := h c
    refine ⟨h30.trans ?_, h9.trans ?_, h28.trans ?_, ha0, ha1, ha2⟩
    · rw [(hagree c).1, (hagree c).2.1]
      exact (v11_eq m c).symm
    · rw [(hagree c).1]
      exact (v9_eq m c).symm
    · rw [(hagree c).1, (hagree c).2.1, (hagree c).2.2]
      exact Cert.ReferenceIdeal.Read.val_main_v28_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
